-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩

class Facts : Prop where
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  bcast_S_S128x1000 : S_.BroadcastsInDim S128x1000 (![] : Fin 0 → Fin S128x1000.rank)
  reducesTo_S128x1000_S_d0_1 : S128x1000.ReducesTo [0, 1] S_
  bcast_S_S128x4x224x224 : S_.BroadcastsInDim S128x4x224x224 (![] : Fin 0 → Fin S128x4x224x224.rank)
  reducesTo_S128x4x224x224_S_d0_1_2_3 : S128x4x224x224.ReducesTo [0, 1, 2, 3] S_
  bcast_S_S128x5x224x224 : S_.BroadcastsInDim S128x5x224x224 (![] : Fin 0 → Fin S128x5x224x224.rank)
  reducesTo_S128x5x224x224_S_d0_1_2_3 : S128x5x224x224.ReducesTo [0, 1, 2, 3] S_
  reducesTo_S_S_d : S_.ReducesTo [] S_

variable [Facts]

def fn_part1 {F : FTy → Type} [FloatOps F] (main_arg5 : FVec F S_ .f32) (main_arg6 : FVec F S_ .f32) (main_arg7 : FVec F S_ .f32) (main_v13 : IVec S_ 1) (main_v16 : IVec S128x5x224x224 1) : IVec S_ 1 :=
  let main_c_5 : IVec S_ 1 := constantI S_ 1 1#1
  let main_v17 : IVec S_ 1 := (fun x v => Host.reduce IntOp.andi x v reducesTo_S128x5x224x224_S_d0_1_2_3 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg6
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_v27 : FVec F S_ .f32 := Host.absf main_arg7
  let main_cst_10 : FVec F S_ .f32 := constant S_ .f32 0x7F800000#32
  let main_v28 : IVec S_ 1 := cmpf .olt main_v27 main_cst_10
  let main_c_11 : IVec S_ 1 := constantI S_ 1 1#1
  let main_v29 : IVec S_ 1 := (fun x v => Host.reduce IntOp.andi x v reducesTo_S_S_d h_S_) main_v28 main_c_11
  let main_v30 : IVec S_ 1 := andi main_v26 main_v29
  main_v30

def fn {F : FTy → Type} [FloatOps F] (main_arg0 : FVec F S128x224x224 .f32) (main_arg1 : FVec F S128x1000 .f32) (main_arg2 : FVec F S128x4x224x224 .f32) (main_arg3 : IVec S128 32) (main_arg4 : FVec F S128x5x224x224 .f32) (main_arg5 : FVec F S_ .f32) (main_arg6 : FVec F S_ .f32) (main_arg7 : FVec F S_ .f32) : IVec S_ 1 :=
  let main_v0 : FVec F S128x224x224 .f32 := Host.absf main_arg0
  let main_cst : FVec F S_ .f32 := constant S_ .f32 0x7F800000#32
  let main_v1 : FVec F S128x224x224 .f32 := broadcastInDim S128x224x224 ![] bcast_S_S128x224x224 main_cst
  let main_v2 : IVec S128x224x224 1 := cmpf .olt main_v0 main_v1
  let main_c : IVec S_ 1 := constantI S_ 1 1#1
  let main_v3 : IVec S_ 1 := (fun x v => Host.reduce IntOp.andi x v reducesTo_S128x224x224_S_d0_1_2 h_S_) main_v2 main_c
  let main_v4 : FVec F S128x1000 .f32 := Host.absf main_arg1
  let main_cst_0 : FVec F S_ .f32 := constant S_ .f32 0x7F800000#32
  let main_v5 : FVec F S128x1000 .f32 := broadcastInDim S128x1000 ![] bcast_S_S128x1000 main_cst_0
  let main_v6 : IVec S128x1000 1 := cmpf .olt main_v4 main_v5
  let main_c_1 : IVec S_ 1 := constantI S_ 1 1#1
  let main_v7 : IVec S_ 1 := (fun x v => Host.reduce IntOp.andi x v reducesTo_S128x1000_S_d0_1 h_S_) main_v6 main_c_1
  let main_v8 : IVec S_ 1 := andi main_v3 main_v7
  let main_v9 : FVec F S128x4x224x224 .f32 := Host.absf main_arg2
  let main_cst_2 : FVec F S_ .f32 := constant S_ .f32 0x7F800000#32
  let main_v10 : FVec F S128x4x224x224 .f32 := broadcastInDim S128x4x224x224 ![] bcast_S_S128x4x224x224 main_cst_2
  let main_v11 : IVec S128x4x224x224 1 := cmpf .olt main_v9 main_v10
  let main_c_3 : IVec S_ 1 := constantI S_ 1 1#1
  let main_v12 : IVec S_ 1 := (fun x v => Host.reduce IntOp.andi x v reducesTo_S128x4x224x224_S_d0_1_2_3 h_S_) main_v11 main_c_3
  let main_v13 : IVec S_ 1 := andi main_v8 main_v12
  let main_v14 : FVec F S128x5x224x224 .f32 := Host.absf main_arg4
  let main_cst_4 : FVec F S_ .f32 := constant S_ .f32 0x7F800000#32
  let main_v15 : FVec F S128x5x224x224 .f32 := broadcastInDim S128x5x224x224 ![] bcast_S_S128x5x224x224 main_cst_4
  let main_v16 : IVec S128x5x224x224 1 := cmpf .olt main_v14 main_v15
  fn_part1 (F := F) main_arg5 main_arg6 main_arg7 main_v13 main_v16
-- ==== Kernel.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩
abbrev S1x128 : Shape := ⟨2, ![1, 128]⟩
abbrev S4x224x224 : Shape := ⟨3, ![4, 224, 224]⟩
abbrev S4x5x224x224 : Shape := ⟨4, ![4, 5, 224, 224]⟩
abbrev S4x4x224x224 : Shape := ⟨4, ![4, 4, 224, 224]⟩
abbrev S4x1x224x224 : Shape := ⟨4, ![4, 1, 224, 224]⟩
abbrev S4x224 : Shape := ⟨2, ![4, 224]⟩
abbrev S4x224x1 : Shape := ⟨3, ![4, 224, 1]⟩
abbrev S4x1 : Shape := ⟨2, ![4, 1]⟩
abbrev S4x1x1 : Shape := ⟨3, ![4, 1, 1]⟩
abbrev S1x1 : Shape := ⟨2, ![1, 1]⟩
abbrev S1x1x1 : Shape := ⟨3, ![1, 1, 1]⟩
abbrev S128x1 : Shape := ⟨2, ![128, 1]⟩
abbrev S128x1x1 : Shape := ⟨3, ![128, 1, 1]⟩
abbrev S1 : Shape := ⟨1, ![1]⟩

abbrev nBuf : Space → Nat
  | .hbm => 66
  | .vmem => 8
  | .smem => 0
  | _ => 0

abbrev bufTy : (tb : Table) → Fin (tcTables nBuf tb) → BufTy
  | .hbm, ⟨0, _⟩ => ⟨S128x224x224, .f32⟩
  | .hbm, ⟨1, _⟩ => ⟨S128x1000, .f32⟩
  | .hbm, ⟨2, _⟩ => ⟨S128x4x224x224, .f32⟩
  | .hbm, ⟨3, _⟩ => ⟨S128, .i32⟩
  | .hbm, ⟨4, _⟩ => ⟨S128x5x224x224, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128x1, .f32⟩
  | .hbm, ⟨21, _⟩ => ⟨S128x1000, .f32⟩
  | .hbm, ⟨22, _⟩ => ⟨S128x1000, .f32⟩
  | .hbm, ⟨23, _⟩ => ⟨S128x1000, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S128x1, .f32⟩
  | .hbm, ⟨28, _⟩ => ⟨S128x1000, .f32⟩
  | .hbm, ⟨29, _⟩ => ⟨S128x1000, .f32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i1⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S128x1x1, .i32⟩
  | .hbm, ⟨39, _⟩ => ⟨S1, .i32⟩
  | .hbm, ⟨40, _⟩ => ⟨S_, .i32⟩
  | .hbm, ⟨41, _⟩ => ⟨S128x1x1, .i32⟩
  | .hbm, ⟨42, _⟩ => ⟨S128x1x1, .i1⟩
  | .hbm, ⟨43, _⟩ => ⟨S1x1x1, .i32⟩
  | .hbm, ⟨44, _⟩ => ⟨S128x1x1, .i32⟩
  | .hbm, ⟨45, _⟩ => ⟨S128x1x1, .i1⟩
  | .hbm, ⟨46, _⟩ => ⟨S128x1x1, .i1⟩
  | .hbm, ⟨47, _⟩ => ⟨S_, .i1⟩
  | .hbm, ⟨48, _⟩ => ⟨S128x1, .i1⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S4x224x224, .f32⟩
  | .local _ .vmem, ⟨1, _⟩ => ⟨S4x224x224, .f32⟩
  | .local _ .vmem, ⟨2, _⟩ => ⟨S4x5x224x224, .f32⟩
  | .local _ .vmem, ⟨3, _⟩ => ⟨S4x5x224x224, .f32⟩
  | .local _ .vmem, ⟨4, _⟩ => ⟨S4x4x224x224, .f32⟩
  | .local _ .vmem, ⟨5, _⟩ => ⟨S4x4x224x224, .f32⟩
  | .local _ .vmem, ⟨6, _⟩ => ⟨S1x128, .f32⟩
  | .local _ .vmem, ⟨7, _⟩ => ⟨S1x128, .f32⟩
  | _, _ => ⟨S128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v7 : Ref sig .tc := ⟨.hbm, 29, rfl⟩
abbrev main_v8 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v9 : Ref sig .tc := ⟨.hbm, 52, rfl⟩
abbrev main_cst : Ref sig .tc := ⟨.hbm, 53, rfl⟩
abbrev main_v10 : Ref sig .tc := ⟨.hbm, 54, rfl⟩
abbrev main_cst_0 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_1 : Ref sig .tc := ⟨.hbm, 63, rfl⟩
abbrev main_v18 : Ref sig .tc := ⟨.hbm, 64, rfl⟩
abbrev main_v19 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v81 : BitVec 1 := Scalar.cmpi .eq arg0 c31_i32
  let v82 : BitVec 32 := Scalar.extui v81
  let c0_i32_35 : BitVec 32 := 0#32
  let v83 : BitVec 1 := Scalar.cmpi .ne v82 c0_i32_35
  v83

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x5x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4x224x224_S4x224x224_0_0_0 : ∀ a, (![0, 0, 0] : Fin 3 → Nat) a + S4x224x224.size a ≤ S4x224x224.size a
  h_S4x224x224 : 0 < S4x224x224.numel
  inb_S4x5x224x224_S4x5x224x224_0_0_0_0 : ∀ a, (![0, 0, 0, 0] : Fin 4 → Nat) a + S4x5x224x224.size a ≤ S4x5x224x224.size a
  h_S4x5x224x224 : 0 < S4x5x224x224.numel
  inb_S4x4x224x224_S4x4x224x224_0_0_0_0 : ∀ a, (![0, 0, 0, 0] : Fin 4 → Nat) a + S4x4x224x224.size a ≤ S4x4x224x224.size a
  h_S4x4x224x224 : 0 < S4x4x224x224.numel
  slices_S4x5x224x224_o0_0_0_0_S4x1x224x224 : S4x5x224x224.Slices ![0, 0, 0, 0] S4x1x224x224
  shapeCasts_S4x1x224x224_S4x224x224 : S4x1x224x224.ShapeCasts S4x224x224
  slices_S4x5x224x224_o0_1_0_0_S4x4x224x224 : S4x5x224x224.Slices ![0, 1, 0, 0] S4x4x224x224
  reduces_S4x224x224_S4x224 : S4x224x224.Reduces [2] S4x224
  shapeCasts_S4x224_S4x224x1 : S4x224.ShapeCasts S4x224x1
  reduces_S4x224x1_S4x1 : S4x224x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  inpos_S1x1x1_p0_0_0 : ∀ a, (![0, 0, 0] : Fin 3 → Nat) a < S1x1x1.size a
  reduces_S4x4x224x224_S4x224x224 : S4x4x224x224.Reduces [1] S4x224x224
  iota_S1x128_d1_w32 : S1x128.Iotas .tc 32 [1]
  natLt_1_32 : 1 < 32
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  reducesTo_S128x1000_S128_d1 : S128x1000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  gather_S128x1000_S128x1x1_S128x1_n_1_0_0_1_2_11_wf : GatherDims.WF S128x1000 S128x1x1 S128x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x224x224.size a ≤ S128x224x224.size a
  hwx0_0 : ∀ i : grid0.Coords, EltTy.bits .f32 = 32 ∨ (Rect.block (s := S128x224x224) S4x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5x224x224.size a ≤ S128x5x224x224.size a
  hwx0_1 : ∀ i : grid0.Coords, EltTy.bits .f32 = 32 ∨ (Rect.block (s := S128x5x224x224) S4x5x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x224x224.size a ≤ S128x4x224x224.size a
  hwx0_2 : ∀ i : grid0.Coords, EltTy.bits .f32 = 32 ∨ (Rect.block (s := S128x4x224x224) S4x4x224x224.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def gather_S128x1000_S128x1x1_S128x1_n_1_0_0_1_2_11 : GatherDims S128x1000 S128x1x1 S128x1 where
  offsetDims := []
  collapsedSliceDims := [1]
  operandBatchingDims := [0]
  startIndicesBatchingDims := [0]
  startIndexMap := [1]
  indexVectorDim := 2
  sliceSizes := ![1, 1]
  wf := gather_S128x1000_S128x1x1_S128x1_n_1_0_0_1_2_11_wf

abbrev win0_0 : Pipeline.Window sig grid0 :=
  Pipeline.Window.ofSpec (Memref.whole main_arg0) S4x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x5x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4x224x224.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x224x224 : Shape := ⟨3, ![128, 224, 224]⟩
abbrev S128x1000 : Shape := ⟨2, ![128, 1000]⟩
abbrev S128x4x224x224 : Shape := ⟨4, ![128, 4, 224, 224]⟩
abbrev S128 : Shape := ⟨1, ![128]⟩
abbrev S128x5x224x224 : Shape := ⟨4, ![128, 5, 224, 224]⟩
abbrev S_ : Shape := ⟨0, ![]⟩
abbrev S128x1x224x224 : Shape := ⟨4, ![128, 1, 224, 224]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S128x224x224, .f32⟩
  | .hbm, ⟨1, _⟩ => ⟨S128x1000, .f32⟩
  | .hbm, ⟨2, _⟩ => ⟨S128x4x224x224, .f32⟩
  | .hbm, ⟨3, _⟩ => ⟨S128, .i32⟩
  | .hbm, ⟨4, _⟩ => ⟨S128x5x224x224, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128x1x224x224, .f32⟩
  | .hbm, ⟨9, _⟩ => ⟨S128x224x224, .f32⟩
  | .hbm, ⟨10, _⟩ => ⟨S_, .f32⟩
  | .hbm, ⟨11, _⟩ => ⟨S128x224x224, .f32⟩
  | .hbm, ⟨12, _⟩ => ⟨S128x224x224, .i1⟩
  | .hbm, ⟨13, _⟩ => ⟨S_, .f32⟩
  | .hbm, ⟨14, _⟩ => ⟨S128x224x224, .f32⟩
  | .hbm, ⟨15, _⟩ => ⟨S128x224x224, .i1⟩
  | .hbm, ⟨16, _⟩ => ⟨S128x224x224, .f32⟩
  | .hbm, ⟨17, _⟩ => ⟨S_, .f32⟩
  | .hbm, ⟨18, _⟩ => ⟨S128x224x224, .f32⟩
  | .hbm, ⟨19, _⟩ => ⟨S128x224x224, .f32⟩
  | .hbm, ⟨20, _⟩ => ⟨S128x224x224, .f32⟩
  | .hbm, ⟨21, _⟩ => ⟨S128x224x224, .f32⟩
  | .hbm, ⟨22, _⟩ => ⟨S_, .f32⟩
  | .hbm, ⟨23, _⟩ => ⟨S128x224x224, .f32⟩
  | .hbm, ⟨24, _⟩ => ⟨S128x224x224, .f32⟩
  | .hbm, ⟨25, _⟩ => ⟨S128x224x224, .f32⟩
  | .hbm, ⟨26, _⟩ => ⟨S_, .f32⟩
  | .hbm, ⟨27, _⟩ => ⟨S_, .f32⟩
  | .hbm, ⟨28, _⟩ => ⟨S128x224x224, .f32⟩
  | .hbm, ⟨29, _⟩ => ⟨S128x224x224, .f32⟩
  | .hbm, ⟨30, _⟩ => ⟨S_, .f32⟩
  | .hbm, ⟨31, _⟩ => ⟨S_, .f32⟩
  | .hbm, ⟨32, _⟩ => ⟨S128x224x224, .f32⟩
  | .hbm, ⟨33, _⟩ => ⟨S_, .f32⟩
  | .hbm, ⟨34, _⟩ => ⟨S_, .f32⟩
  | .hbm, ⟨35, _⟩ => ⟨S128x224x224, .f32⟩
  | .hbm, ⟨36, _⟩ => ⟨S128x224x224, .f32⟩
  | .hbm, ⟨37, _⟩ => ⟨S_, .f32⟩
  | .hbm, ⟨38, _⟩ => ⟨S_, .f32⟩
  | .hbm, ⟨39, _⟩ => ⟨S128x4x224x224, .f32⟩
  | .hbm, ⟨40, _⟩ => ⟨S128x4x224x224, .f32⟩
  | .hbm, ⟨41, _⟩ => ⟨S128x4x224x224, .f32⟩
  | .hbm, ⟨42, _⟩ => ⟨S_, .f32⟩
  | .hbm, ⟨43, _⟩ => ⟨S128x224x224, .f32⟩
  | .hbm, ⟨44, _⟩ => ⟨S_, .f32⟩
  | .hbm, ⟨45, _⟩ => ⟨S_, .f32⟩
  | .hbm, ⟨46, _⟩ => ⟨S128x224x224, .f32⟩
  | .hbm, ⟨47, _⟩ => ⟨S128x224x224, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128x1, .f32⟩
  | .hbm, ⟨56, _⟩ => ⟨S128x1000, .f32⟩
  | .hbm, ⟨57, _⟩ => ⟨S128x1000, .f32⟩
  | .hbm, ⟨58, _⟩ => ⟨S128x1000, .f32⟩
  | .hbm, ⟨59, _⟩ => ⟨S_, .f32⟩
  | .hbm, ⟨60, _⟩ => ⟨S128, .f32⟩
  | .hbm, ⟨61, _⟩ => ⟨S128x1, .f32⟩
  | .hbm, ⟨62, _⟩ => ⟨S128x1, .f32⟩
  | .hbm, ⟨63, _⟩ => ⟨S128x1000, .f32⟩
  | .hbm, ⟨64, _⟩ => ⟨S128x1000, .f32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i1⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S128x1, .i32⟩
  | .hbm, ⟨73, _⟩ => ⟨S128x1x1, .i32⟩
  | .hbm, ⟨74, _⟩ => ⟨S1, .i32⟩
  | .hbm, ⟨75, _⟩ => ⟨S_, .i32⟩
  | .hbm, ⟨76, _⟩ => ⟨S128x1x1, .i32⟩
  | .hbm, ⟨77, _⟩ => ⟨S128x1x1, .i1⟩
  | .hbm, ⟨78, _⟩ => ⟨S1x1x1, .i32⟩
  | .hbm, ⟨79, _⟩ => ⟨S128x1x1, .i32⟩
  | .hbm, ⟨80, _⟩ => ⟨S128x1x1, .i1⟩
  | .hbm, ⟨81, _⟩ => ⟨S128x1x1, .i1⟩
  | .hbm, ⟨82, _⟩ => ⟨S_, .i1⟩
  | .hbm, ⟨83, _⟩ => ⟨S128x1, .i1⟩
  | .hbm, ⟨84, _⟩ => ⟨S128x1, .f32⟩
  | .hbm, ⟨85, _⟩ => ⟨S_, .f32⟩
  | .hbm, ⟨86, _⟩ => ⟨S128x1, .f32⟩
  | .hbm, ⟨87, _⟩ => ⟨S128x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v23 : Ref sig .tc := ⟨.hbm, 47, rfl⟩
abbrev main_cst_9 : Ref sig .tc := ⟨.hbm, 48, rfl⟩
abbrev main_v24 : Ref sig .tc := ⟨.hbm, 49, rfl⟩
abbrev main_call3_cst : Ref sig .tc := ⟨.hbm, 50, rfl⟩
abbrev main_call3_v0 : Ref sig .tc := ⟨.hbm, 51, rfl⟩
abbrev main_call3_cst_0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_cst_1 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_v25 : Ref sig .tc := ⟨.hbm, 64, rfl⟩
abbrev main_v26 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_cst : Ref sig .tc := ⟨.hbm, 85, rfl⟩
abbrev main_call4_v14 : Ref sig .tc := ⟨.hbm, 86, rfl⟩
abbrev main_v27 : Ref sig .tc := ⟨.hbm, 87, rfl⟩
abbrev main_cst_10 : Ref sig .tc := ⟨.hbm, 88, rfl⟩
abbrev main_v28 : Ref sig .tc := ⟨.hbm, 89, rfl⟩
abbrev main_cst_11 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_12 : Ref sig .tc := ⟨.hbm, 98, rfl⟩
abbrev main_v36 : Ref sig .tc := ⟨.hbm, 99, rfl⟩
abbrev main_v37 : Ref sig .tc := ⟨.hbm, 100, rfl⟩

abbrev nD : Nat := 1
abbrev τ : Topo := Topo.v7x

variable {F : FTy → Type} [FloatOps F]

class Facts₀ : Prop where
  slices_S128x5x224x224_S128x1x224x224_0_0_0_0 : S128x5x224x224.Slices ![0, 0, 0, 0] S128x1x224x224
  shapeCasts_S128x1x224x224_S128x224x224 : S128x1x224x224.ShapeCasts S128x224x224
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  slices_S128x5x224x224_S128x4x224x224_0_1_0_0 : S128x5x224x224.Slices ![0, 1, 0, 0] S128x4x224x224
  reducesTo_S128x4x224x224_S128x224x224_d1 : S128x4x224x224.ReducesTo [1] S128x224x224
  reducesTo_S128x1000_S128_d1 : S128x1000.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x1000_0_1 : S128x1.BroadcastsInDim S128x1000 (![0, 1] : Fin 2 → Fin S128x1000.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  reducesTo_S128x1_S_d0_1 : S128x1.ReducesTo [0, 1] S_
  gather_S128x1000_S128x1x1_S128x1_n_1_0_0_1_2_11_wf : GatherDims.WF S128x1000 S128x1x1 S128x1 [] [1] [0] [1] [0] 2 ![1, 1]

variable [Facts₀]

def gather_S128x1000_S128x1x1_S128x1_n_1_0_0_1_2_11 : GatherDims S128x1000 S128x1x1 S128x1 where
  offsetDims := []
  collapsedSliceDims := [1]
  operandBatchingDims := [0]
  startIndicesBatchingDims := [0]
  startIndexMap := [1]
  indexVectorDim := 2
  sliceSizes := ![1, 1]
  wf := gather_S128x1000_S128x1x1_S128x1_n_1_0_0_1_2_11_wf

class Facts : Prop extends Facts₀ where

variable [Facts]
-- ==== Proof.LibSumInvariance.lean ====
/-
  Sums over a whole index set are invariant under the re-arrangements a keepdims reduction chain makes.

  A kernel that reduces a block to one scalar "one axis at a time, keeping a unit axis" computes, at the
  extended reals, the plain sum of the block's entries: every single step of such a chain leaves the TOTAL
  over the current index set unchanged.  Three facts say so.

  * A reduction over any list of axes sends each source index to the reduced index it drops to; summing the
    reduced vector over all reduced indices therefore sums every source entry exactly once (the fibres of
    the dropping map partition the source index set).
  * A shape cast re-reads the same entries through the row-major bijection of the two index sets, and a sum
    over a finite type does not change under a bijection.
  * In a shape all of whose extents are 1 there is exactly one index, so extracting the entry at any static
    position is the sum over the whole (one-element) index set.

  Also here: a sum over a rank-3 index set as the triple sum over its coordinates, a sum over `Fin (m * n)`
  as the double sum over quotient and remainder, and the two keepdims shape casts read at an index.
-/
import Idealize.ShloMosaic.PureOps.Ideal.Laws
import Idealize.ShloMosaic.Lib.ValueIdx
import Idealize.ShloMosaic.Lib.Pipeline.Value

noncomputable section

open scoped BigOperators

namespace Idealize.ShloMosaic.SumInvariance

open Idealize.ShloMosaic Idealize.ShloMosaic.ValueIdx

variable {s t : Shape} {φ : FTy}

/-- The total of a reduced vector is the total of its source: each source index drops to exactly one reduced index. -/
theorem sum_reduceAdd {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the kernel's `vector.multi_reduction <add>` read at the extended reals. -/
theorem sum_multiReduction_add {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i :=
  sum_reduceAdd h src

/-- A shape cast keeps the total: it reads the same entries through a bijection of the index sets. -/
theorem sum_shapeCast {α : Type} [AddCommMonoid α] (x : s.Idx → α) (h : s.ShapeCasts t) :
    ∑ j : t.Idx, shapeCast t x h j = ∑ i : s.Idx, x i := by
  unfold shapeCast
  exact Equiv.sum_comp (Shape.reshapeEquiv h) x

/-- In a shape whose every extent is 1 the entry at a static position is the total. -/
theorem extractAt_eq_sum {α : Type} [AddCommMonoid α] (pos : Fin s.rank → Nat) (x : s.Idx → α)
    (h : ∀ a, pos a < s.size a) (hs : ∀ a, s.size a = 1) : extractAt pos x h = ∑ i : s.Idx, x i := by
  unfold extractAt
  refine (Finset.sum_eq_single_of_mem (fun a => (⟨pos a, h a⟩ : Fin (s.size a))) (Finset.mem_univ _) ?_).symm
  intro b _ hb
  exact absurd (funext fun a => Fin.ext (by have := (b a).isLt; have := h a; have := hs a; show (b a).val = pos a; omega)) hb

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `Fin (m * n)` is the double sum over the block number and the position inside the block:
    the index `n * q + r` for `q < m`, `r < n`. -/
theorem sum_fin_mul {M : Type*} [AddCommMonoid M] (m n : Nat) (f : Fin (m * n) → M) :
    ∑ a : Fin (m * n), f a = ∑ q : Fin m, ∑ r : Fin n, f (finProdFinEquiv (q, r)) := by
  rw [← Equiv.sum_comp finProdFinEquiv f, Fintype.sum_prod_type]

/-- An `[a, b]` array cast to `[a, b, 1]` (a reduction's kept unit axis put back) reads, at `(i, j, u)`, the operand
    at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b, c]` array cast to `[a, b, c]` (a unit channel axis squeezed) reads, at `(i, j, k)`, the operand at
    `(i, 0, j, k)`. -/
theorem shapeCast_a1bc_abc_apply {α : Type} {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

end Idealize.ShloMosaic.SumInvariance

end
-- ==== Proof.LossSpec.lean ====
/-
  The mathematics of the loss, stated once over the extended reals.

  Per cell `(b, h, w)` of a batch of `n` images, with `p` the predicted objectness, `g` channel 0 of the target
  (the objectness mask) and `d k` the difference between predicted and target coordinate `k` (target channels 1 to 4):

    no-object term   `-(max (log (1 + (-p))) (-100))`  where `g = 0`, else `0`;
    object term      `-(max (log p) (-100))`           where `g = 1`, else `0`;
    coordinate term  `∑ k < 4, d k * d k`              where `g = 1`, else `0`.

  Each of the three partial losses is the sum of its term over all cells of all images.  Addition on the extended reals
  is commutative and associative, so a sum over the 128 images can be taken image block by image block: the sum over
  `128 = 32 * 4` images is the sum over 32 blocks of the sums over the 4 images of a block (`sum_blocks`).  Nothing
  here needs finiteness: no term is distributed over a sum.
-/
import Idealize.ShloMosaic.PureOps.Ideal.Laws
import Idealize.ShloMosaic.Lib.ValueIdx
import proofs.«172205_j55551107006911_1_alg».proof.Proof.LibSumInvariance

noncomputable section

open scoped BigOperators

namespace LossSpec

open Idealize.ShloMosaic Idealize.ShloMosaic.ValueIdx Idealize.ShloMosaic.SumInvariance

/-- The word of `1.0` and of `-100.0`, as extended reals (never evaluated: both programs carry the same words). -/
abbrev oneW : EReal := Ideal.ofBits .f32 0x3F800000#32
abbrev floorW : EReal := Ideal.ofBits .f32 0xC2C80000#32

/-- The no-object term of one cell. -/
def noObjTerm (p g : EReal) : EReal :=
  Scalar.select (Ideal.cmp .oeq g 0) (-(max (Ideal.log1p (-p)) floorW)) 0

/-- The object term of one cell. -/
def objTerm (p g : EReal) : EReal :=
  Scalar.select (Ideal.cmp .oeq g oneW) (-(max (Ideal.log p) floorW)) 0

/-- The coordinate term of one cell, from the four coordinate differences. -/
def coorTerm (d : Fin 4 → EReal) (g : EReal) : EReal :=
  Scalar.select (Ideal.cmp .oeq g oneW) (∑ k : Fin 4, d k * d k) 0

/-- Cells `(b, h, w)` of `n` images, and entries `(b, k, h, w)` of an array with `c` channels. -/
abbrev Cell (n : ℕ) : Type := (⟨3, ![n, 224, 224]⟩ : Shape).Idx
abbrev Entry (n c : ℕ) : Type := (⟨4, ![n, c, 224, 224]⟩ : Shape).Idx

/-- Channel `k` of a cell. -/
abbrev chan {n c : ℕ} (k : Fin c) (i : Cell n) : Entry n c := ix4 (i 0) k (i 1) (i 2)

/-- The three terms at a cell, from the arrays: objectness `O`, target `G` (5 channels), coordinates `L` (4 channels). -/
def px0 {n : ℕ} (O : Cell n → EReal) (G : Entry n 5 → EReal) (i : Cell n) : EReal :=
  noObjTerm (O i) (G (chan 0 i))
def px1 {n : ℕ} (O : Cell n → EReal) (G : Entry n 5 → EReal) (i : Cell n) : EReal :=
  objTerm (O i) (G (chan 0 i))
def px2 {n : ℕ} (L : Entry n 4 → EReal) (G : Entry n 5 → EReal) (i : Cell n) : EReal :=
  coorTerm (fun k => L (chan k i) - G (chan k.succ i)) (G (chan 0 i))

/-- Cell `y` of image block `t` (4 images a block), as a cell of the whole batch: image `4 t + y₀`. -/
def glob (t : Fin 32) (y : Cell 4) : Cell 128 :=
  ix3 (⟨4 * t.val + (y 0).val, by have := t.isLt; have h : (y 0).val < 4 := (y 0).isLt; omega⟩ : Fin 128) (y 1) (y 2)

/-- A sum over all cells of the batch is the sum, over the 32 image blocks, of the sums over each block's cells. -/
theorem sum_blocks (f : Cell 128 → EReal) : ∑ i, f i = ∑ t : Fin 32, ∑ y : Cell 4, f (glob t y) := by
  rw [sum_idx3 f]
  refine (sum_fin_mul 32 4 (fun a : Fin (32 * 4) => ∑ b : Fin 224, ∑ c : Fin 224, f (ix3 (a : Fin 128) b c))).trans ?_
  refine Finset.sum_congr rfl fun t _ => ?_
  rw [sum_idx3 (fun y => f (glob t y))]
  refine Finset.sum_congr rfl fun r _ => ?_
  refine Finset.sum_congr rfl fun b _ => ?_
  refine Finset.sum_congr rfl fun c _ => ?_
  refine congrArg f (funext fun d => ?_)
  match d with
  | ⟨0, _⟩ => exact Fin.ext (by show r.val + 4 * t.val = 4 * t.val + r.val; omega)
  | ⟨1, _⟩ => rfl
  | ⟨2, _⟩ => rfl

/-- The three totals. -/
def total0 (O : Cell 128 → EReal) (G : Entry 128 5 → EReal) : EReal := ∑ i, px0 O G i
def total1 (O : Cell 128 → EReal) (G : Entry 128 5 → EReal) : EReal := ∑ i, px1 O G i
def total2 (L : Entry 128 4 → EReal) (G : Entry 128 5 → EReal) : EReal := ∑ i, px2 L G i

/-- The scalar shape. -/
abbrev Sc : Shape := ⟨0, ![]⟩

/-- The loss from its parts: the weighted classification part `cls` plus
    `(w₀ * noobj + obj + w₂ * coor) / 128`, the divisor the word of `128.0`. -/
def combine {F : FTy → Type} [FloatOps F] (cls w2 w0 : FVec F Sc .f32) (l0 l1 l2 : FVec F Sc .f32) : FVec F Sc .f32 :=
  addf cls (Host.divf (addf (addf (mulf w0 l0) l1) (mulf w2 l2)) (constant (F := F) Sc .f32 0x43000000#32))

end LossSpec

end
-- ==== Proof.KernelStep.lean ====
/-
  One grid point's arithmetic on the accumulator row, read at the extended reals.

  At a grid point the body holds a block of 4 images: objectness `x0`, target `x1` (5 channels) and coordinates
  `x2` (4 channels).  It forms the three per-cell term arrays, reduces each to ONE number by summing the last axis,
  then the rows, then the images (a unit axis kept each time), spreads the three numbers over lanes 0, 1, 2 of a
  128-lane row by multiplying with the indicator rows of those lanes, and adds that row to the accumulator.

  Read at the extended reals:
  * the reduction chain is a plain sum over the block's cells — every link keeps the total;
  * the indicator row of lane `k` is `1` at lane `k` and `0` at the other two lanes, and `x * 1 = x`, `x * 0 = 0`
    hold for every extended real, the infinities included, so lane `k` of the spread row is exactly the `k`-th number;
  * `0 - x` is `-x`.
  Hence lane `k` of the new accumulator is lane `k` of the old one plus the sum of term `k` over the block's cells.
-/
import proofs.«172205_j55551107006911_1_alg».proof.Proof.Gen.KernelIdeal.Skeleton
import proofs.«172205_j55551107006911_1_alg».proof.Proof.LossSpec
import Idealize.ShloMosaic.Lib.Pipeline.Value

set_option maxRecDepth 16384

noncomputable section

open scoped BigOperators

namespace Cert.KernelIdeal.Step

open Cert.KernelIdeal Cert.KernelIdeal.Gen LossSpec
open Idealize.ShloMosaic Idealize.ShloMosaic.ValueIdx Idealize.ShloMosaic.SumInvariance

variable {F : FTy → Type} [FloatOps F]

/-! ## The body's payloads as one step on the accumulator -/

/-- What one grid point stores into the accumulator row, from the point's three blocks and the row's old contents. -/
def stepK (x0 : Vec F S4x224x224 .f32) (x1 : Vec F S4x5x224x224 .f32) (x2 : Vec F S4x4x224x224 .f32)
    (acc : Vec F S1x128 .f32) : FVec F S1x128 .f32 :=
  k0_pay1 (k0_pay8 x2 (k0_pay4 x1) (k0_pay5 x1) (k0_pay6 x0 x1) (k0_pay7 x0 x1) acc)

/-- The zero row the first point resets the accumulator to. -/
abbrev zeroRow : FVec F S1x128 .f32 := k0_pay2

/-- Rows then images: a per-cell array summed along its last axis and then along its rows, one number per image. -/
def perImage (v : FVec F S4x224x224 .f32) : FVec F S4x1x1 .f32 :=
  shapeCast S4x1x1 (multiReduction .add [1] S4x1 (shapeCast S4x224x1
    (multiReduction .add [2] S4x224 v 0x00000000#32 reduces_S4x224x224_S4x224 (.inl rfl) rfl) shapeCasts_S4x224_S4x224x1)
    0x00000000#32 reduces_S4x224x1_S4x1 (.inl rfl) rfl) shapeCasts_S4x1_S4x1x1

/-- The per-image numbers summed to one scalar. -/
def overImages (v : FVec F S4x1x1 .f32) : F .f32 :=
  extractAt ![0, 0, 0] (shapeCast S1x1x1 (multiReduction .add [0] S1x1 v 0x00000000#32 reduces_S4x1x1_S1x1 (.inl rfl) rfl)
    shapeCasts_S1x1_S1x1x1) inpos_S1x1x1_p0_0_0

/-- The indicator row of lane `k`: the lane number compared with `k`, widened and converted. -/
def laneIs (k : BitVec 32) : FVec F S1x128 .f32 :=
  sitofp .f32 (extui 32 (cmpi .eq (iota .tc S1x128 32 [1] iota_S1x128_d1_w32) (broadcast S1x128 k)) natLt_1_32)

/-- The squared coordinate distance per cell: the four channels' squared differences summed. -/
def sqDist (x2 v8 : FVec F S4x4x224x224 .f32) : FVec F S4x224x224 .f32 :=
  multiReduction .add [1] S4x224x224 (mulf (subf x2 v8) (subf x2 v8)) 0x00000000#32 reduces_S4x4x224x224_S4x224x224 (.inl rfl) rfl

/-- The masked coordinate term per cell. -/
def coorArr (x2 v8 : FVec F S4x4x224x224 .f32) (v10 : IVec S4x224x224 1) : FVec F S4x224x224 .f32 :=
  select v10 (sqDist x2 v8) (broadcast S4x224x224 (Scalar.ofBits .f32 0x00000000#32))

/-- The accumulator's update, with its parts named. -/
theorem pay8_eq (x2 : Vec F S4x4x224x224 .f32) (v8 : FVec F S4x4x224x224 .f32) (v10 : IVec S4x224x224 1)
    (v28 : FVec F S4x224x224 .f32) (v32 : FVec F S4x1x1 .f32) (acc : Vec F S1x128 .f32) :
    k0_pay8 x2 v8 v10 v28 v32 acc
      = addf acc (addf (addf (mulf (broadcast S1x128 (overImages v32)) (laneIs 0#32))
          (mulf (broadcast S1x128 (overImages (perImage v28))) (laneIs 1#32)))
          (mulf (broadcast S1x128 (overImages (perImage (coorArr x2 v8 v10)))) (laneIs 2#32))) := rfl

/-- The no-object term per cell, as the body computes it. -/
def noObjArr (x0 : Vec F S4x224x224 .f32) (x1 : Vec F S4x5x224x224 .f32) : FVec F S4x224x224 .f32 :=
  select (cmpf .oeq (k0_pay3 x1) (broadcast S4x224x224 (Scalar.ofBits .f32 0x00000000#32)))
    (subf (broadcast S4x224x224 (Scalar.ofBits .f32 0x00000000#32))
      (maximumf (log1p (subf (broadcast S4x224x224 (Scalar.ofBits .f32 0x00000000#32)) x0))
        (broadcast S4x224x224 (Scalar.ofBits .f32 0xC2C80000#32))))
    (broadcast S4x224x224 (Scalar.ofBits .f32 0x00000000#32))

theorem pay7_eq (x0 : Vec F S4x224x224 .f32) (x1 : Vec F S4x5x224x224 .f32) :
    k0_pay7 x0 x1 = perImage (noObjArr x0 x1) := rfl

/-! ## At the extended reals -/

/-- The total of a sum-reduction from the zero word is the total of its source (the accumulator word's side condition
    spelt as the program spells it). -/
theorem sum_zeroAcc {s t : Shape} {axes : List (Fin s.rank)} (src : FVec Ideal s .f32) (h : s.Reduces axes t)
    (hφ : FKind.Formats .f32) (hacc : (0x00000000#32 : BitVec 32) = 0x00000000#32) :
    ∑ j : t.Idx, multiReduction .add axes t src 0x00000000#32 h hφ hacc j = ∑ i : s.Idx, src i :=
  sum_reduceAdd h src

/-- The reduction chain is the plain sum over the block's cells. -/
theorem overImages_perImage (v : FVec Ideal S4x224x224 .f32) : overImages (perImage v) = ∑ y : Cell 4, v y := by
  unfold overImages perImage
  refine (extractAt_eq_sum _ _ _ (by decide)).trans ?_
  refine (sum_shapeCast _ _).trans ?_
  refine (sum_zeroAcc _ _ _ _).trans ?_
  refine (sum_shapeCast _ _).trans ?_
  refine (sum_zeroAcc _ _ _ _).trans ?_
  refine (sum_shapeCast _ _).trans ?_
  exact sum_zeroAcc _ _ _ _

/-- Channel 0 of the target block, squeezed: the mask each term is selected by. -/
theorem pay3_apply (x1 : Vec Ideal S4x5x224x224 .f32) (y : Cell 4) : k0_pay3 x1 y = x1 (chan 0 y) := by
  obtain ⟨a, b, c, rfl⟩ : ∃ (a : Fin 4) (b : Fin 224) (c : Fin 224), y = ix3 a b c := ⟨y 0, y 1, y 2, eq_ix3 y⟩
  unfold k0_pay3
  refine (shapeCast_a1bc_abc_apply _ shapeCasts_S4x1x224x224_S4x224x224 a b c).trans ?_
  exact extractStridedSlice_apply ![0, 0, 0, 0] x1 slices_S4x5x224x224_o0_0_0_0_S4x1x224x224 _ (ix4 a (0 : Fin 5) b c)
    (fun d => match d with
      | ⟨0, _⟩ => by show a.val = 0 + a.val; omega
      | ⟨1, _⟩ => by show 0 = 0 + 0; omega
      | ⟨2, _⟩ => by show b.val = 0 + b.val; omega
      | ⟨3, _⟩ => by show c.val = 0 + c.val; omega)

/-- Channels 1 to 4 of the target block: the target coordinates. -/
theorem pay4_apply (x1 : Vec Ideal S4x5x224x224 .f32) (a : Fin 4) (k : Fin 4) (b : Fin 224) (c : Fin 224) :
    k0_pay4 x1 (ix4 a k b c) = x1 (ix4 a k.succ b c) := by
  unfold k0_pay4
  exact extractStridedSlice_apply ![0, 1, 0, 0] x1 slices_S4x5x224x224_o0_1_0_0_S4x4x224x224 _ (ix4 a k.succ b c)
    (fun d => match d with
      | ⟨0, _⟩ => by show a.val = 0 + a.val; omega
      | ⟨1, _⟩ => by show k.val + 1 = 1 + k.val; omega
      | ⟨2, _⟩ => by show b.val = 0 + b.val; omega
      | ⟨3, _⟩ => by show c.val = 0 + c.val; omega)

/-- The object mask of a cell. -/
theorem pay5_apply (x1 : Vec Ideal S4x5x224x224 .f32) (y : Cell 4) :
    k0_pay5 x1 y = Ideal.cmp .oeq (x1 (chan 0 y)) oneW := by
  unfold k0_pay5
  show Ideal.cmp .oeq (k0_pay3 x1 y) oneW = _
  rw [pay3_apply]

/-- The object term of a cell. -/
theorem pay6_apply (x0 : Vec Ideal S4x224x224 .f32) (x1 : Vec Ideal S4x5x224x224 .f32) (y : Cell 4) :
    k0_pay6 x0 x1 y = px1 x0 x1 y := by
  unfold k0_pay6 px1 objTerm
  show Scalar.select (k0_pay5 x1 y) (Ideal.ofBits .f32 0x00000000#32 - max (Ideal.log (x0 y)) floorW) (Ideal.ofBits .f32 0x00000000#32) = _
  rw [pay5_apply, Ideal.ofBits_zero_f32, zero_sub]

/-- The no-object term of a cell. -/
theorem noObjArr_apply (x0 : Vec Ideal S4x224x224 .f32) (x1 : Vec Ideal S4x5x224x224 .f32) (y : Cell 4) :
    noObjArr x0 x1 y = px0 x0 x1 y := by
  unfold noObjArr px0 noObjTerm
  show Scalar.select (Ideal.cmp .oeq (k0_pay3 x1 y) (Ideal.ofBits .f32 0x00000000#32))
    (Ideal.ofBits .f32 0x00000000#32 - max (Ideal.log1p (Ideal.ofBits .f32 0x00000000#32 - x0 y)) floorW) (Ideal.ofBits .f32 0x00000000#32) = _
  rw [pay3_apply, Ideal.ofBits_zero_f32, zero_sub, zero_sub]

/-- The coordinate term of a cell. -/
theorem coorArr_apply (x1 : Vec Ideal S4x5x224x224 .f32) (x2 : Vec Ideal S4x4x224x224 .f32) (y : Cell 4) :
    coorArr x2 (k0_pay4 x1) (k0_pay5 x1) y = px2 x2 x1 y := by
  obtain ⟨a, b, c, rfl⟩ : ∃ (a : Fin 4) (b : Fin 224) (c : Fin 224), y = ix3 a b c := ⟨y 0, y 1, y 2, eq_ix3 y⟩
  unfold coorArr px2 coorTerm
  show Scalar.select (k0_pay5 x1 (ix3 a b c)) (sqDist x2 (k0_pay4 x1) (ix3 a b c)) (Ideal.ofBits .f32 0x00000000#32) = _
  rw [pay5_apply, Ideal.ofBits_zero_f32]
  congr 1
  unfold sqDist
  refine (Ideal.multiReduction_add_single _ 0x00000000#32 reduces_S4x4x224x224_S4x224x224 (.inl rfl) rfl (ix3 a b c)).trans ?_
  show ∑ k : Fin 4, (mulf (subf x2 (k0_pay4 x1)) (subf x2 (k0_pay4 x1))) (reduces_S4x4x224x224_S4x224x224.lift (ix3 a b c) k) = _
  refine Finset.sum_congr rfl fun k _ => ?_
  have e : reduces_S4x4x224x224_S4x224x224.lift (ix3 a b c) k = ix4 a k b c :=
    funext fun d => Fin.ext (by match d with | ⟨0, _⟩ => rfl | ⟨1, _⟩ => rfl | ⟨2, _⟩ => rfl | ⟨3, _⟩ => rfl)
  rw [e]
  show (x2 (ix4 a k b c) - k0_pay4 x1 (ix4 a k b c)) * (x2 (ix4 a k b c) - k0_pay4 x1 (ix4 a k b c)) = _
  rw [pay4_apply]

/-- The indicator rows at the three lanes that carry a partial loss. -/
theorem laneIs_apply (k : BitVec 32) (j : Fin 128) :
    (laneIs (F := Ideal) k) (ix2 (0 : Fin 1) j)
      = (((((IntOp.cmpi .eq (BitVec.ofNat 32 (0 * 128 + j.val)) k).setWidth 32).toInt : ℤ) : ℝ) : EReal) := rfl

theorem laneIs_0_0 : (laneIs (F := Ideal) 0#32) (ix2 (0 : Fin 1) (0 : Fin 128)) = 1 := by
  rw [laneIs_apply, show ((IntOp.cmpi .eq (BitVec.ofNat 32 (0 * 128 + (0 : Fin 128).val)) 0#32).setWidth 32).toInt = 1 from by decide]; norm_num
theorem laneIs_1_0 : (laneIs (F := Ideal) 1#32) (ix2 (0 : Fin 1) (0 : Fin 128)) = 0 := by
  rw [laneIs_apply, show ((IntOp.cmpi .eq (BitVec.ofNat 32 (0 * 128 + (0 : Fin 128).val)) 1#32).setWidth 32).toInt = 0 from by decide]; norm_num
theorem laneIs_2_0 : (laneIs (F := Ideal) 2#32) (ix2 (0 : Fin 1) (0 : Fin 128)) = 0 := by
  rw [laneIs_apply, show ((IntOp.cmpi .eq (BitVec.ofNat 32 (0 * 128 + (0 : Fin 128).val)) 2#32).setWidth 32).toInt = 0 from by decide]; norm_num
theorem laneIs_0_1 : (laneIs (F := Ideal) 0#32) (ix2 (0 : Fin 1) (1 : Fin 128)) = 0 := by
  rw [laneIs_apply, show ((IntOp.cmpi .eq (BitVec.ofNat 32 (0 * 128 + (1 : Fin 128).val)) 0#32).setWidth 32).toInt = 0 from by decide]; norm_num
theorem laneIs_1_1 : (laneIs (F := Ideal) 1#32) (ix2 (0 : Fin 1) (1 : Fin 128)) = 1 := by
  rw [laneIs_apply, show ((IntOp.cmpi .eq (BitVec.ofNat 32 (0 * 128 + (1 : Fin 128).val)) 1#32).setWidth 32).toInt = 1 from by decide]; norm_num
theorem laneIs_2_1 : (laneIs (F := Ideal) 2#32) (ix2 (0 : Fin 1) (1 : Fin 128)) = 0 := by
  rw [laneIs_apply, show ((IntOp.cmpi .eq (BitVec.ofNat 32 (0 * 128 + (1 : Fin 128).val)) 2#32).setWidth 32).toInt = 0 from by decide]; norm_num
theorem laneIs_0_2 : (laneIs (F := Ideal) 0#32) (ix2 (0 : Fin 1) (2 : Fin 128)) = 0 := by
  rw [laneIs_apply, show ((IntOp.cmpi .eq (BitVec.ofNat 32 (0 * 128 + (2 : Fin 128).val)) 0#32).setWidth 32).toInt = 0 from by decide]; norm_num
theorem laneIs_1_2 : (laneIs (F := Ideal) 1#32) (ix2 (0 : Fin 1) (2 : Fin 128)) = 0 := by
  rw [laneIs_apply, show ((IntOp.cmpi .eq (BitVec.ofNat 32 (0 * 128 + (2 : Fin 128).val)) 1#32).setWidth 32).toInt = 0 from by decide]; norm_num
theorem laneIs_2_2 : (laneIs (F := Ideal) 2#32) (ix2 (0 : Fin 1) (2 : Fin 128)) = 1 := by
  rw [laneIs_apply, show ((IntOp.cmpi .eq (BitVec.ofNat 32 (0 * 128 + (2 : Fin 128).val)) 2#32).setWidth 32).toInt = 1 from by decide]; norm_num

/-- The three block sums. -/
def blockSum0 (x0 : Vec Ideal S4x224x224 .f32) (x1 : Vec Ideal S4x5x224x224 .f32) : EReal := ∑ y : Cell 4, px0 x0 x1 y
def blockSum1 (x0 : Vec Ideal S4x224x224 .f32) (x1 : Vec Ideal S4x5x224x224 .f32) : EReal := ∑ y : Cell 4, px1 x0 x1 y
def blockSum2 (x1 : Vec Ideal S4x5x224x224 .f32) (x2 : Vec Ideal S4x4x224x224 .f32) : EReal := ∑ y : Cell 4, px2 x2 x1 y

/-- The step at a lane, with the three numbers and the three indicator values still to be read. -/
theorem stepK_apply (x0 : Vec Ideal S4x224x224 .f32) (x1 : Vec Ideal S4x5x224x224 .f32) (x2 : Vec Ideal S4x4x224x224 .f32)
    (acc : Vec Ideal S1x128 .f32) (l : S1x128.Idx) :
    stepK x0 x1 x2 acc l = acc l + ((blockSum0 x0 x1 * laneIs (F := Ideal) 0#32 l + blockSum1 x0 x1 * laneIs (F := Ideal) 1#32 l)
      + blockSum2 x1 x2 * laneIs (F := Ideal) 2#32 l) := by
  unfold stepK k0_pay1
  rw [shapeCast_self, pay8_eq, pay7_eq]
  show acc l + ((overImages (perImage (noObjArr x0 x1)) * laneIs (F := Ideal) 0#32 l
      + overImages (perImage (k0_pay6 x0 x1)) * laneIs (F := Ideal) 1#32 l)
      + overImages (perImage (coorArr x2 (k0_pay4 x1) (k0_pay5 x1))) * laneIs (F := Ideal) 2#32 l) = _
  rw [overImages_perImage, overImages_perImage, overImages_perImage]
  unfold blockSum0 blockSum1 blockSum2
  simp only [noObjArr_apply, pay6_apply, coorArr_apply]

/-- Lane 0 gains the block's no-object sum, lane 1 its object sum, lane 2 its coordinate sum. -/
theorem stepK_lane0 (x0 : Vec Ideal S4x224x224 .f32) (x1 : Vec Ideal S4x5x224x224 .f32) (x2 : Vec Ideal S4x4x224x224 .f32)
    (acc : Vec Ideal S1x128 .f32) :
    stepK x0 x1 x2 acc (ix2 (0 : Fin 1) (0 : Fin 128)) = acc (ix2 (0 : Fin 1) (0 : Fin 128)) + blockSum0 x0 x1 := by
  rw [stepK_apply, laneIs_0_0, laneIs_1_0, laneIs_2_0, mul_one, mul_zero, mul_zero, add_zero, add_zero]
theorem stepK_lane1 (x0 : Vec Ideal S4x224x224 .f32) (x1 : Vec Ideal S4x5x224x224 .f32) (x2 : Vec Ideal S4x4x224x224 .f32)
    (acc : Vec Ideal S1x128 .f32) :
    stepK x0 x1 x2 acc (ix2 (0 : Fin 1) (1 : Fin 128)) = acc (ix2 (0 : Fin 1) (1 : Fin 128)) + blockSum1 x0 x1 := by
  rw [stepK_apply, laneIs_0_1, laneIs_1_1, laneIs_2_1, mul_one, mul_zero, mul_zero, zero_add, add_zero]
theorem stepK_lane2 (x0 : Vec Ideal S4x224x224 .f32) (x1 : Vec Ideal S4x5x224x224 .f32) (x2 : Vec Ideal S4x4x224x224 .f32)
    (acc : Vec Ideal S1x128 .f32) :
    stepK x0 x1 x2 acc (ix2 (0 : Fin 1) (2 : Fin 128)) = acc (ix2 (0 : Fin 1) (2 : Fin 128)) + blockSum2 x1 x2 := by
  rw [stepK_apply, laneIs_0_2, laneIs_1_2, laneIs_2_2, mul_one, mul_zero, mul_zero, add_zero, zero_add]

/-- The reset row is zero at every lane. -/
theorem zeroRow_apply (l : S1x128.Idx) : (zeroRow (F := Ideal)) l = 0 := by
  unfold zeroRow k0_pay2
  rw [shapeCast_self]
  exact Ideal.ofBits_zero_f32

end Cert.KernelIdeal.Step

end
-- ==== Proof.KernelPieces.lean ====
/-
  What one grid point leaves in the accumulator row and in the output row, as values.

  The body's stores into the 1 x 128 accumulator row are whole-row stores.  At the first grid point the row is first
  reset to zero and then overwritten by "zero row, one step"; at every later point it is overwritten by "what the point
  before left, one step"; at the last point the output row is, in addition, stored with what the accumulator row has
  just been given.  "One step" is the function `stepK` of the point's three input blocks and the row's old contents.
  Each statement holds for every interpretation of the float operations.
-/
import proofs.«172205_j55551107006911_1_alg».proof.Proof.Gen.KernelIdeal.Frame
import proofs.«172205_j55551107006911_1_alg».proof.Proof.KernelStep
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Step

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First point: the accumulator row ends at one step from the zero row. -/
theorem acc_first (c : Dev nD) (i : grid0.Coords) (arg1 : Memref sig .tc .vmem S4x224x224 .f32) (harg1 : arg1.IsWhole) (arg2 : Memref sig .tc .vmem S4x5x224x224 .f32) (harg2 : arg2.IsWhole) (arg3 : Memref sig .tc .vmem S4x4x224x224 .f32) (harg3 : arg3.IsWhole) (arg4 : Memref sig .tc .vmem S1x128 .f32) (harg4 : arg4.IsWhole) (arg5 : Memref sig .tc .vmem S1x128 .f32) (harg5 : arg5.IsWhole) (hc0 : cond0_0 i) (hc1 : ¬cond0_1 i)
    (x0 : Vec F S4x224x224 .f32) (x1 : Vec F S4x5x224x224 .f32) (x2 : Vec F S4x4x224x224 .f32) :
    sout0_A_0 c i arg1 harg1 arg2 harg2 arg3 harg3 arg4 harg4 arg5 harg5 hc0 hc1 x0 x1 x2 = stepK x0 x1 x2 zeroRow := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x128) hz2]
  unfold stepK zeroRow
  simp only [View.readAt_eq_ld, harg1.read_unread, harg2.read_unread, harg3.read_unread, harg5.read_unread,
    View.ld_unit_zero (S := S4x224x224) hz3, View.ld_unit_zero (S := S4x5x224x224) hz4, View.ld_unit_zero (S := S4x4x224x224) hz4,
    View.ld_unit_zero (S := S1x128) hz2, View.readCov_unit_zero (S := S1x128) _ hz2]

/-- A middle point: the accumulator row ends at one step from what the point before left (`xs0`). -/
theorem acc_middle (c : Dev nD) (i : grid0.Coords) (arg1 : Memref sig .tc .vmem S4x224x224 .f32) (harg1 : arg1.IsWhole) (arg2 : Memref sig .tc .vmem S4x5x224x224 .f32) (harg2 : arg2.IsWhole) (arg3 : Memref sig .tc .vmem S4x4x224x224 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : ¬cond0_1 i)
    (x0 : Vec F S4x224x224 .f32) (x1 : Vec F S4x5x224x224 .f32) (x2 : Vec F S4x4x224x224 .f32) (xs0 : Vec F S1x128 .f32) :
    sout0_B_0 c i arg1 harg1 arg2 harg2 arg3 harg3 arg4 harg4 arg5 harg5 hc0 hc1 x0 x1 x2 xs0 = stepK x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz2]
  unfold stepK
  simp only [View.readAt_eq_ld, harg1.read_unread, harg2.read_unread, harg3.read_unread, harg5.read_unread,
    View.ld_unit_zero (S := S4x224x224) hz3, View.ld_unit_zero (S := S4x5x224x224) hz4, View.ld_unit_zero (S := S4x4x224x224) hz4,
    View.ld_unit_zero (S := S1x128) hz2, View.readCov_unit_zero (S := S1x128) _ hz2]

/-- The last point: the accumulator row likewise, … -/
theorem acc_last (c : Dev nD) (i : grid0.Coords) (arg1 : Memref sig .tc .vmem S4x224x224 .f32) (harg1 : arg1.IsWhole) (arg2 : Memref sig .tc .vmem S4x5x224x224 .f32) (harg2 : arg2.IsWhole) (arg3 : Memref sig .tc .vmem S4x4x224x224 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S4x224x224 .f32) (x1 : Vec F S4x5x224x224 .f32) (x2 : Vec F S4x4x224x224 .f32) (xs0 : Vec F S1x128 .f32) :
    sout0_C_0 c i arg1 harg1 arg2 harg2 arg3 harg3 arg4 harg4 arg5 harg5 hc0 hc1 x0 x1 x2 xs0 = stepK x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz2]
  unfold stepK
  simp only [View.readAt_eq_ld, harg1.read_unread, harg2.read_unread, harg3.read_unread, harg5.read_unread,
    View.ld_unit_zero (S := S4x224x224) hz3, View.ld_unit_zero (S := S4x5x224x224) hz4, View.ld_unit_zero (S := S4x4x224x224) hz4,
    View.ld_unit_zero (S := S1x128) hz2, View.readCov_unit_zero (S := S1x128) _ hz2]

/-- … and the output row is stored with the same contents. -/
theorem out_last (c : Dev nD) (i : grid0.Coords) (arg1 : Memref sig .tc .vmem S4x224x224 .f32) (harg1 : arg1.IsWhole) (arg2 : Memref sig .tc .vmem S4x5x224x224 .f32) (harg2 : arg2.IsWhole) (arg3 : Memref sig .tc .vmem S4x4x224x224 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 : Vec F S4x224x224 .f32) (x1 : Vec F S4x5x224x224 .f32) (x2 : Vec F S4x4x224x224 .f32) (xs0 : Vec F S1x128 .f32) :
    out0_C_3 c i arg1 harg1 arg2 harg2 arg3 harg3 arg4 harg4 arg5 harg5 hc0 hc1 x0 x1 x2 xs0 = stepK x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz2]
  unfold stepK
  simp only [View.readAt_eq_ld, harg1.read_unread, harg2.read_unread, harg3.read_unread, harg5.read_unread,
    View.ld_unit_zero (S := S4x224x224) hz3, View.ld_unit_zero (S := S4x5x224x224) hz4, View.ld_unit_zero (S := S4x4x224x224) hz4,
    View.ld_unit_zero (S := S1x128) hz2, View.readCov_unit_zero (S := S1x128) _ hz2]

end Cert.KernelIdeal.Pieces

end
-- ==== Proof.KernelFold.lean ====
/-
  The accumulator row over the whole grid, and the output array.

  After grid point `n` the accumulator row holds the zero row stepped through the blocks `0, 1, …, n` (`accAfter`):
  the first point resets and steps, every later point steps from what its predecessor left — an induction on the point.
  Only the last point (31) writes the output row back, and its block is the whole 1 x 128 output array, so after the
  region the output array holds `accAfter` at 31.
-/
import proofs.«172205_j55551107006911_1_alg».proof.Proof.KernelPieces
import Idealize.ShloMosaic.Lib.Pipeline.Value
import Idealize.ShloMosaic.Lib.Tactic

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen Cert.KernelIdeal.Step Cert.KernelIdeal.Pieces

variable {F : FTy → Type} [FloatOps F]
variable (m : (ℓ : Loc nD τ sig) → Buf (Elt F) ℓ) (ρ : Dev nD → PrngReg)

/-- The three input blocks of a grid point, at their literal types. -/
abbrev blkO (c : Dev nD) (t : Fin cfg0.N) : Vec F S4x224x224 .f32 := iblk m c 0 t
abbrev blkG (c : Dev nD) (t : Fin cfg0.N) : Vec F S4x5x224x224 .f32 := iblk m c 1 t
abbrev blkL (c : Dev nD) (t : Fin cfg0.N) : Vec F S4x4x224x224 .f32 := iblk m c 2 t

/-- The accumulator row after grid point `n`: the zero row stepped through the blocks `0 … n`. -/
def accAfter (c : Dev nD) : (n : ℕ) → n < cfg0.N → Vec F S1x128 .f32
  | 0, h => stepK (blkO m c ⟨0, h⟩) (blkG m c ⟨0, h⟩) (blkL m c ⟨0, h⟩) zeroRow
  | n + 1, h => stepK (blkO m c ⟨n + 1, h⟩) (blkG m c ⟨n + 1, h⟩) (blkL m c ⟨n + 1, h⟩) (accAfter c n (Nat.lt_of_succ_lt h))

/-- What the generated frame records for the accumulator row after each point is that fold. -/
theorem acc_eq (c : Dev nD) : ∀ (n : ℕ) (h : n < cfg0.N), (outsAt0 m c n h).2 = accAfter m c n h
  | 0, h => by
    rw [outsAt0_A m c ⟨0, h⟩ rfl (by show ¬(0 : ℕ) % 32 = 31; decide)]
    dsimp only
    exact acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : cfg0.N = 32 := N_0
    have h0 : ¬(⟨n + 1, h⟩ : Fin cfg0.N).val % 32 = 0 := by dsimp only; omega
    by_cases h31 : n + 1 = 31
    · have h1 : (⟨n + 1, h⟩ : Fin cfg0.N).val % 32 = 31 := by dsimp only; omega
      rw [outsAt0_C m c ⟨n + 1, h⟩ h0 h1]
      dsimp only
      refine (acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2).trans ?_
      rw [acc_eq c n (Nat.lt_of_succ_lt h)]
      rfl
    · have h1 : ¬(⟨n + 1, h⟩ : Fin cfg0.N).val % 32 = 31 := by dsimp only; omega
      rw [outsAt0_B m c ⟨n + 1, h⟩ h0 h1]
      dsimp only
      refine (acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2).trans ?_
      rw [acc_eq c n (Nat.lt_of_succ_lt h)]
      rfl

/-- The last grid point. -/
abbrev tLast : Fin cfg0.N := ⟨31, by rw [show cfg0.N = 32 from N_0]; decide⟩

/-- What the output row's staging buffer holds after the last point: the accumulator row it has just been given. -/
theorem out_eq (c : Dev nD) : (outsAt0 m c 31 tLast.isLt).1 = accAfter m c 31 tLast.isLt := by
  have h0 : ¬(tLast : Fin cfg0.N).val % 32 = 0 := by decide
  have h1 : (tLast : Fin cfg0.N).val % 32 = 31 := by decide
  rw [outsAt0_C m c tLast h0 h1]
  dsimp only
  refine (out_last c (grid0.coords tLast) (ms0_0 tLast) (hs0_0 tLast) (ms0_1 tLast) (hs0_1 tLast) (ms0_2 tLast) (hs0_2 tLast) (ms0_3 tLast) (hs0_3 tLast) scM0_0 (Memref.isWhole_whole _) _ _ (iblk m c 0 tLast) (iblk m c 1 tLast) (iblk m c 2 tLast) (outsAt0 m c 30 (Nat.lt_of_succ_lt tLast.isLt)).2).trans ?_
  rw [acc_eq m c 30 (Nat.lt_of_succ_lt tLast.isLt)]
  rfl

/-- The output array after the region. -/
abbrev result (c : Dev nD) : Buf (Elt F) ((c : Thread nD τ).loc main_v0) := accAfter m c 31 tLast.isLt

/-- The last point's block of the output window sits at offset 0 on both axes and has the array's own extents:
    it is the whole 1 x 128 array. -/
theorem lastBlock_facts : ∀ a : Fin 2,
    win0_3.index tLast a * win0_3.size a = 0 ∧ win0_3.xsize (grid0.coords tLast) a = S1x128.size a := by decide +kernel

/-- So every entry of the output array lies in it. -/
theorem mem_lastBlock (i : S1x128.Idx) : i ∈ ((cfg0.win 3).blk tLast).view.set := by
  show i ∈ ((View.whole main_v0).slice (win0_3.rect tLast)).set
  rw [View.set_slice_whole, Rect.mem_set_unit]
  intro a
  show win0_3.index tLast a * win0_3.size a ≤ (i a : Nat)
    ∧ (i a : Nat) < win0_3.index tLast a * win0_3.size a + win0_3.xsize (grid0.coords tLast) a
  rw [(lastBlock_facts a).1, (lastBlock_facts a).2, Nat.zero_add]
  exact ⟨Nat.zero_le _, (i a).isLt⟩

/-- Only the last point writes the output row back, and what it writes back, read as its block of the array, is the
    accumulator row after that point. -/
theorem flushed_eq (c : Dev nD) (t : Fin cfg0.N) (hf : (cfg0.win 3).flush t = true) :
    (dats m 0 c).flushed 3 t = ((cfg0.win 3).blk t).view.read (Elt F) (result m c) := by
  have hN : cfg0.N = 32 := N_0
  have ht : t = tLast := Fin.ext (by have := (flush0_3 t).mp hf; have := t.isLt; show t.val = 31; omega)
  subst ht
  show (cfg0.win 3).cut (grid0.coords tLast) ((dats m 0 c).after 3 tLast) = _
  rw [after0_3, out_eq]
  have hoff : (fun a => win0_3.index tLast a * main_v0.ty.shape.size a) = fun _ => 0 :=
    funext fun a => (lastBlock_facts a).1
  exact (Memref.read_access_unit_zero (Elt F) main_v0 hoff (fun a => by rw [congrFun hoff a]; simp) (result m c)).symm

/-- So the output array ends holding the accumulator row after the last point. -/
theorem final_out (c : Dev nD) : (dats m 0 c).arrAt 3 cfg0.N = result m c :=
  (dats m 0 c).arrAt_eq_of_cover 3 (result m c) (flushed_eq m c) fun i =>
    ⟨tLast, (flush0_3 tLast).mpr (by decide), mem_lastBlock i⟩

end Cert.KernelIdeal.Fold

end
-- ==== Proof.KernelTotals.lean ====
/-
  The three lanes of the output array are the three totals over the whole batch.

  Grid point `t` stages images `4 t … 4 t + 3`: cell `y` of its objectness block is cell `(4 t + y₀, y₁, y₂)` of the
  objectness array, and likewise, channel by channel, for the target and coordinate blocks.  So the sum of a term over
  the point's block is the sum of that term over those four images' cells of the whole arrays.  Lane `k` of the
  accumulator row starts at zero and gains block `t`'s sum of term `k` at point `t`; after the last point it holds the
  sum over the 32 blocks, which is the sum over all 128 images' cells — the total.
-/
import proofs.«172205_j55551107006911_1_alg».proof.Proof.KernelFold

set_option maxRecDepth 16384

noncomputable section

open scoped BigOperators

namespace Cert.KernelIdeal.Totals

open Idealize.ShloMosaic Idealize.ShloMosaic.TcCoe Idealize.SL.Sem Idealize.ShloMosaic.ValueIdx
open Cert.KernelIdeal Cert.KernelIdeal.Gen Cert.KernelIdeal.Step Cert.KernelIdeal.Fold LossSpec

variable (m : (ℓ : Loc nD τ sig) → Buf (Elt Ideal) ℓ)

/-- The three argument arrays the region stages, on core `c`. -/
abbrev arrO (c : Dev nD) : FVec Ideal S128x224x224 .f32 := m ((c : Thread nD τ).loc main_arg0)
abbrev arrG (c : Dev nD) : FVec Ideal S128x5x224x224 .f32 := m ((c : Thread nD τ).loc main_arg4)
abbrev arrL (c : Dev nD) : FVec Ideal S128x4x224x224 .f32 := m ((c : Thread nD τ).loc main_arg2)

/-- Entry `(a, k, h, w)` of block `t` of a `ch`-channel array, as an entry of the whole array: image `4 t + a`. -/
def globE {ch : ℕ} (t : Fin 32) (e : Entry 4 ch) : Entry 128 ch :=
  ix4 (⟨4 * t.val + (e 0).val, by have := t.isLt; have h : (e 0).val < 4 := (e 0).isLt; omega⟩ : Fin 128) (e 1) (e 2) (e 3)

theorem chan_glob {ch : ℕ} (t : Fin 32) (k : Fin ch) (y : Cell 4) : chan k (glob t y) = globE t (chan k y) := rfl

/-- The block indices of the three input windows: block `t` along the images, block 0 along every other axis. -/
theorem idxO : ∀ t : Fin cfg0.N, win0_0.index t 0 = t.val ∧ win0_0.index t 1 = 0 ∧ win0_0.index t 2 = 0 := by decide +kernel
theorem idxG : ∀ t : Fin cfg0.N, win0_1.index t 0 = t.val ∧ win0_1.index t 1 = 0 ∧ win0_1.index t 2 = 0 ∧ win0_1.index t 3 = 0 := by decide +kernel
theorem idxL : ∀ t : Fin cfg0.N, win0_2.index t 0 = t.val ∧ win0_2.index t 1 = 0 ∧ win0_2.index t 2 = 0 ∧ win0_2.index t 3 = 0 := by decide +kernel

/-- The objectness block read at a cell. -/
theorem blkO_apply (c : Dev nD) (t : Fin cfg0.N) (ht : t.val < 32) (y : Cell 4) :
    blkO m c t y = arrO m c (glob ⟨t.val, ht⟩ y) := by
  unfold blkO iblk
  rw [View.read_apply]
  show V m c main_arg0 _ = m (c.tc.loc main_arg0) _
  unfold V
  congr 1
  funext a
  apply Fin.ext
  match a with
  | ⟨0, _⟩ => show win0_0.index t 0 * 4 + 1 * (y 0).val = 4 * t.val + (y 0).val; rw [(idxO t).1]; omega
  | ⟨1, _⟩ => show win0_0.index t 1 * 224 + 1 * (y 1).val = (y 1).val; rw [(idxO t).2.1]; omega
  | ⟨2, _⟩ => show win0_0.index t 2 * 224 + 1 * (y 2).val = (y 2).val; rw [(idxO t).2.2]; omega

/-- The target block read at an entry. -/
theorem blkG_apply (c : Dev nD) (t : Fin cfg0.N) (ht : t.val < 32) (e : Entry 4 5) :
    blkG m c t e = arrG m c (globE ⟨t.val, ht⟩ e) := by
  unfold blkG iblk
  rw [View.read_apply]
  show V m c main_arg4 _ = m (c.tc.loc main_arg4) _
  unfold V
  congr 1
  funext a
  apply Fin.ext
  match a with
  | ⟨0, _⟩ => show win0_1.index t 0 * 4 + 1 * (e 0).val = 4 * t.val + (e 0).val; rw [(idxG t).1]; omega
  | ⟨1, _⟩ => show win0_1.index t 1 * 5 + 1 * (e 1).val = (e 1).val; rw [(idxG t).2.1]; omega
  | ⟨2, _⟩ => show win0_1.index t 2 * 224 + 1 * (e 2).val = (e 2).val; rw [(idxG t).2.2.1]; omega
  | ⟨3, _⟩ => show win0_1.index t 3 * 224 + 1 * (e 3).val = (e 3).val; rw [(idxG t).2.2.2]; omega

/-- The coordinate block read at an entry. -/
theorem blkL_apply (c : Dev nD) (t : Fin cfg0.N) (ht : t.val < 32) (e : Entry 4 4) :
    blkL m c t e = arrL m c (globE ⟨t.val, ht⟩ e) := by
  unfold blkL iblk
  rw [View.read_apply]
  show V m c main_arg2 _ = m (c.tc.loc main_arg2) _
  unfold V
  congr 1
  funext a
  apply Fin.ext
  match a with
  | ⟨0, _⟩ => show win0_2.index t 0 * 4 + 1 * (e 0).val = 4 * t.val + (e 0).val; rw [(idxL t).1]; omega
  | ⟨1, _⟩ => show win0_2.index t 1 * 4 + 1 * (e 1).val = (e 1).val; rw [(idxL t).2.1]; omega
  | ⟨2, _⟩ => show win0_2.index t 2 * 224 + 1 * (e 2).val = (e 2).val; rw [(idxL t).2.2.1]; omega
  | ⟨3, _⟩ => show win0_2.index t 3 * 224 + 1 * (e 3).val = (e 3).val; rw [(idxL t).2.2.2]; omega

/-- Block `s`'s share of each total (zero past the grid). -/
def share0 (c : Dev nD) (s : ℕ) : EReal := if hs : s < 32 then ∑ y : Cell 4, px0 (arrO m c) (arrG m c) (glob ⟨s, hs⟩ y) else 0
def share1 (c : Dev nD) (s : ℕ) : EReal := if hs : s < 32 then ∑ y : Cell 4, px1 (arrO m c) (arrG m c) (glob ⟨s, hs⟩ y) else 0
def share2 (c : Dev nD) (s : ℕ) : EReal := if hs : s < 32 then ∑ y : Cell 4, px2 (arrL m c) (arrG m c) (glob ⟨s, hs⟩ y) else 0

/-- A point's block sums are its block's shares. -/
theorem blockSum0_eq (c : Dev nD) (t : Fin cfg0.N) : blockSum0 (blkO m c t) (blkG m c t) = share0 m c t.val := by
  have ht : t.val < 32 := lt_of_lt_of_eq t.isLt (show cfg0.N = 32 from N_0)
  unfold blockSum0 share0
  rw [dif_pos ht]
  refine Finset.sum_congr rfl fun y _ => ?_
  unfold px0
  rw [blkO_apply m c t ht, blkG_apply m c t ht, chan_glob]
theorem blockSum1_eq (c : Dev nD) (t : Fin cfg0.N) : blockSum1 (blkO m c t) (blkG m c t) = share1 m c t.val := by
  have ht : t.val < 32 := lt_of_lt_of_eq t.isLt (show cfg0.N = 32 from N_0)
  unfold blockSum1 share1
  rw [dif_pos ht]
  refine Finset.sum_congr rfl fun y _ => ?_
  unfold px1
  rw [blkO_apply m c t ht, blkG_apply m c t ht, chan_glob]
theorem blockSum2_eq (c : Dev nD) (t : Fin cfg0.N) : blockSum2 (blkG m c t) (blkL m c t) = share2 m c t.val := by
  have ht : t.val < 32 := lt_of_lt_of_eq t.isLt (show cfg0.N = 32 from N_0)
  unfold blockSum2 share2
  rw [dif_pos ht]
  refine Finset.sum_congr rfl fun y _ => ?_
  unfold px2
  rw [blkG_apply m c t ht]
  refine congrArg (fun d => coorTerm d _) (funext fun k => ?_)
  rw [blkL_apply m c t ht, blkG_apply m c t ht]
  rfl

/-- Lanes 0, 1, 2 of the accumulator row after point `n`: the shares of blocks `0 … n`. -/
theorem lane0_after (c : Dev nD) : ∀ (n : ℕ) (h : n < cfg0.N),
    accAfter m c n h (ix2 (0 : Fin 1) (0 : Fin 128)) = ∑ s ∈ Finset.range (n + 1), share0 m c s
  | 0, h => by
    show stepK (blkO m c ⟨0, h⟩) (blkG m c ⟨0, h⟩) (blkL m c ⟨0, h⟩) (zeroRow (F := Ideal)) _ = _
    rw [stepK_lane0, zeroRow_apply, zero_add, blockSum0_eq, Finset.sum_range_one]
  | n + 1, h => by
    show stepK (blkO m c ⟨n + 1, h⟩) (blkG m c ⟨n + 1, h⟩) (blkL m c ⟨n + 1, h⟩) (accAfter m c n (Nat.lt_of_succ_lt h)) _ = _
    rw [stepK_lane0, lane0_after c n, blockSum0_eq, Finset.sum_range_succ _ (n + 1)]
theorem lane1_after (c : Dev nD) : ∀ (n : ℕ) (h : n < cfg0.N),
    accAfter m c n h (ix2 (0 : Fin 1) (1 : Fin 128)) = ∑ s ∈ Finset.range (n + 1), share1 m c s
  | 0, h => by
    show stepK (blkO m c ⟨0, h⟩) (blkG m c ⟨0, h⟩) (blkL m c ⟨0, h⟩) (zeroRow (F := Ideal)) _ = _
    rw [stepK_lane1, zeroRow_apply, zero_add, blockSum1_eq, Finset.sum_range_one]
  | n + 1, h => by
    show stepK (blkO m c ⟨n + 1, h⟩) (blkG m c ⟨n + 1, h⟩) (blkL m c ⟨n + 1, h⟩) (accAfter m c n (Nat.lt_of_succ_lt h)) _ = _
    rw [stepK_lane1, lane1_after c n, blockSum1_eq, Finset.sum_range_succ _ (n + 1)]
theorem lane2_after (c : Dev nD) : ∀ (n : ℕ) (h : n < cfg0.N),
    accAfter m c n h (ix2 (0 : Fin 1) (2 : Fin 128)) = ∑ s ∈ Finset.range (n + 1), share2 m c s
  | 0, h => by
    show stepK (blkO m c ⟨0, h⟩) (blkG m c ⟨0, h⟩) (blkL m c ⟨0, h⟩) (zeroRow (F := Ideal)) _ = _
    rw [stepK_lane2, zeroRow_apply, zero_add, blockSum2_eq, Finset.sum_range_one]
  | n + 1, h => by
    show stepK (blkO m c ⟨n + 1, h⟩) (blkG m c ⟨n + 1, h⟩) (blkL m c ⟨n + 1, h⟩) (accAfter m c n (Nat.lt_of_succ_lt h)) _ = _
    rw [stepK_lane2, lane2_after c n, blockSum2_eq, Finset.sum_range_succ _ (n + 1)]

/-- The shares of all 32 blocks add up to the totals. -/
theorem shares0 (c : Dev nD) : ∑ s ∈ Finset.range 32, share0 m c s = total0 (arrO m c) (arrG m c) := by
  unfold total0
  rw [sum_blocks, Finset.sum_range]
  refine Finset.sum_congr rfl fun t _ => ?_
  unfold share0
  rw [dif_pos t.isLt]
theorem shares1 (c : Dev nD) : ∑ s ∈ Finset.range 32, share1 m c s = total1 (arrO m c) (arrG m c) := by
  unfold total1
  rw [sum_blocks, Finset.sum_range]
  refine Finset.sum_congr rfl fun t _ => ?_
  unfold share1
  rw [dif_pos t.isLt]
theorem shares2 (c : Dev nD) : ∑ s ∈ Finset.range 32, share2 m c s = total2 (arrL m c) (arrG m c) := by
  unfold total2
  rw [sum_blocks, Finset.sum_range]
  refine Finset.sum_congr rfl fun t _ => ?_
  unfold share2
  rw [dif_pos t.isLt]

/-- The output array's three lanes. -/
theorem result_lane0 (c : Dev nD) : result m c (ix2 (0 : Fin 1) (0 : Fin 128)) = total0 (arrO m c) (arrG m c) :=
  (lane0_after m c 31 tLast.isLt).trans (shares0 m c)
theorem result_lane1 (c : Dev nD) : result m c (ix2 (0 : Fin 1) (1 : Fin 128)) = total1 (arrO m c) (arrG m c) :=
  (lane1_after m c 31 tLast.isLt).trans (shares1 m c)
theorem result_lane2 (c : Dev nD) : result m c (ix2 (0 : Fin 1) (2 : Fin 128)) = total2 (arrL m c) (arrG m c) :=
  (lane2_after m c 31 tLast.isLt).trans (shares2 m c)

end Cert.KernelIdeal.Totals

end
-- ==== Proof.KernelTail.lean ====
/-
  The kernel program's result: the host operations after the region, read on the output array.

  After the region the program slices lanes 0, 1, 2 out of the 1 x 128 output array as three scalars, computes the
  classification part from the scores and labels exactly as the reference does, and combines: the weighted
  classification part plus `(w₀ * lane₀ + lane₁ + w₂ * lane₂) / 128`.  The classification part is carried as the
  reference's own term for it, unopened.  Stated for every interpretation of the float operations.
-/
import proofs.«172205_j55551107006911_1_alg».proof.Proof.KernelFold
import proofs.«172205_j55551107006911_1_alg».proof.Proof.RefRead
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Lane `j` of the output row as a scalar tensor: the slice `[0:1, j:j+1]`, reshaped to rank 0. -/
def laneOf (j : ℕ) (h : S1x128.Slices ![0, j] S1x1) (out : FVec F S1x128 .f32) : FVec F S_ .f32 :=
  shapeCast S_ (extractStridedSlice S1x1 ![0, j] out h) shapeCasts_S1x1_S_

set_option maxHeartbeats 4000000 in
/-- The program's result after the host tail, on core `c`. -/
theorem tail_eq (c : Dev nD) :
    Pipeline.afterTail₀ cfgs (dats m) 0 (V0 m) [hostOps1, hostOps1_1, hostOps1_2, hostOps1_3, hostOps1_4] c main_v19
      = LossSpec.combine
          (Cert.ReferenceIdeal.ReadP.val_main_v31 (F := F) (m ((c : Thread nD τ).loc main_arg1)) (m ((c : Thread nD τ).loc main_arg3)) (m ((c : Thread nD τ).loc main_arg7)))
          (m ((c : Thread nD τ).loc main_arg5)) (m ((c : Thread nD τ).loc main_arg6))
          (laneOf 0 slices_S1x128_S1x1_0_0 ((dats m 0 c).arrAt 3 cfg0.N))
          (laneOf 1 slices_S1x128_S1x1_0_1 ((dats m 0 c).arrAt 3 cfg0.N))
          (laneOf 2 slices_S1x128_S1x1_0_2 ((dats m 0 c).arrAt 3 cfg0.N)) := by
  have e0 : Pipeline.withArrays (cfgs 0).spec c (V0 m c) (fun w => (dats m 0 c).arrAt w (cfgs 0).N) (Proc.devRef .tc main_v0)
      = (dats m 0 c).arrAt 3 cfg0.N :=
    Pipeline.withArrays_arr spec0 launch0.win.arr_inj c (V0 m c) _ 3
  have e1 : Pipeline.withArrays (cfgs 0).spec c (V0 m c) (fun w => (dats m 0 c).arrAt w (cfgs 0).N) (Proc.devRef .tc main_arg1)
      = m ((c : Thread nD τ).loc main_arg1) :=
    Pipeline.withArrays_of_ne _ c (V0 m c) _ main_arg1 (by exact (by decide : ∀ w, Pipeline.arrRef spec0 w ≠ main_arg1))
  have e3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by exact (by decide : ∀ w, Pipeline.arrRef spec0 w ≠ main_arg3))
  have e5 : Pipeline.withArrays (cfgs 0).spec c (V0 m c) (fun w => (dats m 0 c).arrAt w (cfgs 0).N) (Proc.devRef .tc main_arg5)
      = m ((c : Thread nD τ).loc main_arg5) :=
    Pipeline.withArrays_of_ne _ c (V0 m c) _ main_arg5 (by exact (by decide : ∀ w, Pipeline.arrRef spec0 w ≠ main_arg5))
  have e6 : Pipeline.withArrays (cfgs 0).spec c (V0 m c) (fun w => (dats m 0 c).arrAt w (cfgs 0).N) (Proc.devRef .tc main_arg6)
      = m ((c : Thread nD τ).loc main_arg6) :=
    Pipeline.withArrays_of_ne _ c (V0 m c) _ main_arg6 (by exact (by decide : ∀ w, Pipeline.arrRef spec0 w ≠ main_arg6))
  have e7 : Pipeline.withArrays (cfgs 0).spec c (V0 m c) (fun w => (dats m 0 c).arrAt w (cfgs 0).N) (Proc.devRef .tc main_arg7)
      = m ((c : Thread nD τ).loc main_arg7) :=
    Pipeline.withArrays_of_ne _ c (V0 m c) _ main_arg7 (by exact (by decide : ∀ w, Pipeline.arrRef spec0 w ≠ main_arg7))
  unfold Pipeline.afterTail₀
  simp only [hostOps1, hostOps1_1, hostOps1_2, hostOps1_3, hostOps1_4, List.flatten_cons, List.flatten_nil, List.append_nil,
    List.cons_append, List.nil_append]
  after_results_simp
  simp only [TRef.ofBuf, TRef.toBuf, cast_eq]
  rw [e0, e1, e3, e5, e6, e7]
  rfl

end Cert.KernelIdeal.Tail

end
-- ==== Proof.KernelValue.lean ====
/-
  The idealized kernel program's run, read at the extended reals: its result is the specification's combination of the
  classification part with the three totals over the whole batch, and its arguments end unchanged.
-/
import proofs.«172205_j55551107006911_1_alg».proof.Proof.KernelTotals
import proofs.«172205_j55551107006911_1_alg».proof.Proof.KernelTail

set_option maxRecDepth 16384

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fold Cert.KernelIdeal.Totals Cert.KernelIdeal.Tail LossSpec

variable (m : (ℓ : Loc nD τ sig) → Buf (Elt Ideal) ℓ) (ρ : Dev nD → PrngReg)

/-- Lane `j` of a row, sliced out and reshaped to a scalar tensor, is the row's entry `(0, j)`. -/
theorem laneOf_apply (j : ℕ) (hj : j < 128) (h : S1x128.Slices ![0, j] S1x1) (out : FVec Ideal S1x128 .f32) :
    laneOf j h out = fun _ => out (ix2 (0 : Fin 1) (⟨j, hj⟩ : Fin 128)) := by
  funext i
  unfold laneOf
  refine (shapeCast_apply _ shapeCasts_S1x1_S_ i (ix2 (0 : Fin 1) (0 : Fin 1)) ?_).trans ?_
  · have a := (S1x1.rowMajor (ix2 (0 : Fin 1) (0 : Fin 1))).isLt
    have b := (S_.rowMajor i).isLt
    have h1 : S1x1.numel = 1 := by decide
    have h0 : S_.numel = 1 := by decide
    omega
  · exact extractStridedSlice_apply ![0, j] out h (ix2 (0 : Fin 1) (0 : Fin 1)) (ix2 (0 : Fin 1) (⟨j, hj⟩ : Fin 128))
      (fun a => match a with
        | ⟨0, _⟩ => by show 0 = 0 + 0; omega
        | ⟨1, _⟩ => by show j = j + 0; omega)

/-- The result of the idealized kernel program on core `c`, in the specification's words. -/
def result (c : Dev nD) : FVec Ideal S_ .f32 :=
  combine
    (Cert.ReferenceIdeal.ReadP.val_main_v31 (F := Ideal) (m ((c : Thread nD τ).loc main_arg1)) (m ((c : Thread nD τ).loc main_arg3)) (m ((c : Thread nD τ).loc main_arg7)))
    (m ((c : Thread nD τ).loc main_arg5)) (m ((c : Thread nD τ).loc main_arg6))
    (fun _ => total0 (arrO m c) (arrG m c)) (fun _ => total1 (arrO m c) (arrG m c)) (fun _ => total2 (arrL m c) (arrG m c))

/-- What the host tail leaves in the result buffer. -/
theorem tail_result (c : Dev nD) :
    Pipeline.afterTail₀ cfgs (dats m) 0 (V0 m) [hostOps1, hostOps1_1, hostOps1_2, hostOps1_3, hostOps1_4] c main_v19 = result m c := by
  rw [tail_eq, final_out]
  rw [laneOf_apply 0 (by decide), laneOf_apply 1 (by decide), laneOf_apply 2 (by decide)]
  unfold result
  rw [← result_lane0 m c, ← result_lane1 m c, ← result_lane2 m c]
  rfl

/-- The run: the result buffer ends at `result`, every argument as launched. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v19 (Pipeline.mem_restRefs_of main_v19 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Value

end
-- ==== Proof.RefValue.lean ====
/-
  The reference's result, read at the extended reals, in the words of the specification.

  The reference masks the three per-cell term arrays over the whole batch and sums each over every cell.  Read at an
  index, its mask is channel 0 of the target (a slice and a squeeze), its negations are the extended reals' negation, and
  its channel sum is `0 + ∑ k`, so the three arrays are the specification's three terms cell by cell and the three sums
  are the specification's totals (`0 + x = x`).  The rest of the reference — the classification part and the final
  weighted combination — is carried along unopened.
-/
import proofs.«172205_j55551107006911_1_alg».proof.Proof.RefRead
import proofs.«172205_j55551107006911_1_alg».proof.Proof.LossSpec

set_option maxRecDepth 16384

noncomputable section

open scoped BigOperators

namespace Cert.ReferenceIdeal.RefValue

open Cert.ReferenceIdeal Cert.ReferenceIdeal.ReadP LossSpec
open Idealize.ShloMosaic Idealize.ShloMosaic.ValueIdx

variable (O : FVec Ideal S128x224x224 .f32) (G : FVec Ideal S128x5x224x224 .f32) (L : FVec Ideal S128x4x224x224 .f32)

/-- The mask's source: channel 0 of the target, through the reference's slice and squeeze. -/
theorem mask_apply (i : Cell 128) : val_main_v1 (F := Ideal) G i = G (chan 0 i) := by
  rw [val_main_v1_apply, val_main_v0_apply]
  refine congrArg G (funext fun a => Fin.ext ?_)
  have h0 : (i 0).val < 128 := (i 0).isLt
  have h1 : (i 1).val < 224 := (i 1).isLt
  have h2 : (i 2).val < 224 := (i 2).isLt
  match a with
  | ⟨0, _⟩ => show (((i 0).val * 224 + (i 1).val) * 224 + (i 2).val) / 50176 = (i 0).val; omega
  | ⟨1, _⟩ => rfl
  | ⟨2, _⟩ => show (((i 0).val * 224 + (i 1).val) * 224 + (i 2).val) / 224 % 224 = (i 1).val; omega
  | ⟨3, _⟩ => show (((i 0).val * 224 + (i 1).val) * 224 + (i 2).val) % 224 = (i 2).val; omega

/-- The no-object term array. -/
theorem noObj_apply (i : Cell 128) : val_main_v14 (F := Ideal) O G i = px0 O G i := by
  rw [val_main_v14_apply, val_main_v5_apply, mask_apply]
  unfold px0 noObjTerm
  show Scalar.select (Ideal.cmp .oeq (G (chan 0 i)) (Ideal.ofBits .f32 0x00000000#32))
    (-(max (Ideal.log1p (-(O i))) floorW)) (Ideal.ofBits .f32 0x00000000#32) = _
  rw [Ideal.ofBits_zero_f32]

/-- The object term array. -/
theorem obj_apply (i : Cell 128) : val_main_v17 (F := Ideal) O G i = px1 O G i := by
  rw [val_main_v17_apply, val_main_v3_apply, mask_apply]
  unfold px1 objTerm
  show Scalar.select (Ideal.cmp .oeq (G (chan 0 i)) oneW)
    (-(max (Ideal.log (O i)) floorW)) (Ideal.ofBits .f32 0x00000000#32) = _
  rw [Ideal.ofBits_zero_f32]

/-- The coordinate term array. -/
theorem coor_apply (i : Cell 128) : val_main_v23 (F := Ideal) L G i = px2 L G i := by
  rw [val_main_v23_apply, val_main_v3_apply, mask_apply, val_main_v22_apply]
  unfold px2 coorTerm
  show Scalar.select (Ideal.cmp .oeq (G (chan 0 i)) oneW)
    (Ideal.ofBits .f32 0x00000000#32 + ∑ k : Fin 4, val_main_v21 (F := Ideal) L G (idx_main_v22 i k)) (Ideal.ofBits .f32 0x00000000#32) = _
  rw [Ideal.ofBits_zero_f32, zero_add]
  congr 1
  refine Finset.sum_congr rfl fun k _ => ?_
  have e1 : idx_main_v22 i k = chan k i :=
    funext fun a => Fin.ext (by match a with | ⟨0, _⟩ => rfl | ⟨1, _⟩ => rfl | ⟨2, _⟩ => rfl | ⟨3, _⟩ => rfl)
  have e2 : idx_main_v19 (chan k i) = chan k.succ i :=
    funext fun a => Fin.ext (by
      match a with
      | ⟨0, _⟩ => rfl
      | ⟨1, _⟩ => show 1 + k.val = k.val + 1; omega
      | ⟨2, _⟩ => rfl
      | ⟨3, _⟩ => rfl)
  rw [val_main_v21_apply, val_main_v20_apply, val_main_v19_apply, e1, e2]
  rfl

/-- The three sums are the specification's totals. -/
theorem sum0_eq : val_main_v15 (F := Ideal) O G = fun _ => total0 O G := by
  funext j
  rw [val_main_v15_apply]
  show Ideal.ofBits .f32 0x00000000#32 + _ = _
  rw [Ideal.ofBits_zero_f32, zero_add]
  exact Finset.sum_congr rfl fun i _ => noObj_apply O G i
theorem sum1_eq : val_main_v18 (F := Ideal) O G = fun _ => total1 O G := by
  funext j
  rw [val_main_v18_apply]
  show Ideal.ofBits .f32 0x00000000#32 + _ = _
  rw [Ideal.ofBits_zero_f32, zero_add]
  exact Finset.sum_congr rfl fun i _ => obj_apply O G i
theorem sum2_eq : val_main_v24 (F := Ideal) L G = fun _ => total2 L G := by
  funext j
  rw [val_main_v24_apply]
  show Ideal.ofBits .f32 0x00000000#32 + _ = _
  rw [Ideal.ofBits_zero_f32, zero_add]
  exact Finset.sum_congr rfl fun i _ => coor_apply G L i

/-- The reference's result: the specification's combination of its own classification part with the three totals. -/
theorem result_eq (S : FVec Ideal S128x1000 .f32) (lab : IVec S128 32) (w2 w0 w7 : FVec Ideal S_ .f32) :
    val_main_v37 (F := Ideal) O S L lab G w2 w0 w7
      = combine (val_main_v31 (F := Ideal) S lab w7) w2 w0 (fun _ => total0 O G) (fun _ => total1 O G) (fun _ => total2 L G) := by
  unfold val_main_v37 val_main_v36 val_main_v35 val_main_v33 val_main_v32 val_main_v34 val_main_cst_12 combine
  rw [sum0_eq, sum1_eq, sum2_eq]

end Cert.ReferenceIdeal.RefValue

end
-- ==== Proof.lean ====
/-
  A detection loss — per-cell objectness cross entropy, masked coordinate squared error, and a per-image classification
  cross entropy — computed by a Pallas reduction kernel over 32 blocks of 4 images, against its jnp reference.

  The three frames.  The two kernel programs' frames are the generated ones; the reference is a host program, and its
  frame is its run with the result dropped.

  The idealization rewrote nothing, so `preserves` is trivial.

  The equivalence, at the extended reals.  Both programs end with the same scalar: the weighted classification part
  (the same host operations on the same arguments in both programs, carried unopened) plus
  `(w₀ * T₀ + T₁ + w₂ * T₂) / 128`, where `T₀, T₁, T₂` are the sums over all cells of all 128 images of the no-object,
  object and coordinate terms.  The reference sums each masked term array over the whole batch at once.  The kernel, at
  grid point `t`, sums each term over the four images of block `t` (last axis, then rows, then images), places the three
  numbers on lanes 0, 1, 2 of a 128-lane row by multiplying with the lanes' indicator rows, and adds the row to an
  accumulator that starts at zero; after the last point lane `k` holds the sum over the 32 blocks of block sums of term
  `k`, which is `T_k` because addition of extended reals is commutative and associative.  The kernel's `0 - x` is the
  reference's `-x`, and `x * 1 = x`, `x * 0 = 0` hold for every extended real.  No step needs the inputs finite.
-/
import proofs.«172205_j55551107006911_1_alg».proof.Defs
import proofs.«172205_j55551107006911_1_alg».proof.Proof.Gen.Kernel
import proofs.«172205_j55551107006911_1_alg».proof.Proof.Gen.Kernel.Skeleton
import proofs.«172205_j55551107006911_1_alg».proof.Proof.Gen.Kernel.Launch
import proofs.«172205_j55551107006911_1_alg».proof.Proof.Gen.Kernel.Points
import proofs.«172205_j55551107006911_1_alg».proof.Proof.Gen.Kernel.Frame
import proofs.«172205_j55551107006911_1_alg».proof.Proof.Gen.KernelIdeal
import proofs.«172205_j55551107006911_1_alg».proof.Proof.Gen.KernelIdeal.Skeleton
import proofs.«172205_j55551107006911_1_alg».proof.Proof.Gen.KernelIdeal.Launch
import proofs.«172205_j55551107006911_1_alg».proof.Proof.Gen.KernelIdeal.Points
import proofs.«172205_j55551107006911_1_alg».proof.Proof.Gen.KernelIdeal.Frame
import proofs.«172205_j55551107006911_1_alg».proof.Proof.Gen.ReferenceIdeal
import proofs.«172205_j55551107006911_1_alg».proof.Proof.Gen.Pre_finite_inputs
import proofs.«172205_j55551107006911_1_alg».proof.Proof.KernelValue
import proofs.«172205_j55551107006911_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end at the specification's combination of the
    classification part with the three totals. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v37_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
